-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S32768x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  reduces_S512x1024_S512 : S512x1024.Reduces [1] S512
  shapeCasts_S512_S512x1 : S512.ShapeCasts S512x1
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S512x1_S512x1024 : S512x1.Broadcasts S512x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S32768x1024.size a
  hwx0_7 : ∀ i : grid0.Coords, EltTy.bits .f32 = 32 ∨ (Rect.block (s := S32768x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S32768x1024, .f32⟩
  | .hbm, ⟨9, _⟩ => ⟨S32768x1024, .i1⟩
  | .hbm, ⟨10, _⟩ => ⟨S_, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S_, .f32⟩
  | .hbm, ⟨20, _⟩ => ⟨S32768, .f32⟩
  | .hbm, ⟨21, _⟩ => ⟨S32768, .f32⟩
  | .hbm, ⟨22, _⟩ => ⟨S_, .f32⟩
  | .hbm, ⟨23, _⟩ => ⟨S32768x1024, .f32⟩
  | .hbm, ⟨24, _⟩ => ⟨S_, .f32⟩
  | .hbm, ⟨25, _⟩ => ⟨S1024x1024, .f32⟩
  | .hbm, ⟨26, _⟩ => ⟨S1024x1024, .i1⟩
  | .hbm, ⟨27, _⟩ => ⟨S_, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S32768x1024, .f32⟩
  | .hbm, ⟨34, _⟩ => ⟨S32768x1, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S1024x1024, .f32⟩
  | .hbm, ⟨43, _⟩ => ⟨S1024x1024, .i1⟩
  | .hbm, ⟨44, _⟩ => ⟨S_, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S32768x1024, .f32⟩
  | .hbm, ⟨51, _⟩ => ⟨S32768x1, .f32⟩
  | .hbm, ⟨52, _⟩ => ⟨S1x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S1024x1024, .f32⟩
  | .hbm, ⟨60, _⟩ => ⟨S1024x1024, .i1⟩
  | .hbm, ⟨61, _⟩ => ⟨S_, .f32⟩
  | .hbm, ⟨62, _⟩ => ⟨S_, .f32⟩
  | .hbm, ⟨63, _⟩ => ⟨S1024x1024, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S32768x1024, .f32⟩
  | .hbm, ⟨68, _⟩ => ⟨S32768x1, .f32⟩
  | .hbm, ⟨69, _⟩ => ⟨S1x1024, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .f32⟩
  | .hbm, ⟨74, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_cst_3 : Ref sig .tc := ⟨.hbm, 19, rfl⟩
abbrev main_v6 : Ref sig .tc := ⟨.hbm, 20, rfl⟩
abbrev main_v7 : Ref sig .tc := ⟨.hbm, 21, rfl⟩
abbrev main_cst_4 : Ref sig .tc := ⟨.hbm, 22, rfl⟩
abbrev main_v8 : Ref sig .tc := ⟨.hbm, 23, rfl⟩
abbrev main_cst_5 : Ref sig .tc := ⟨.hbm, 24, rfl⟩
abbrev main_v9 : Ref sig .tc := ⟨.hbm, 25, rfl⟩
abbrev main_v10 : Ref sig .tc := ⟨.hbm, 26, rfl⟩
abbrev main_cst_6 : Ref sig .tc := ⟨.hbm, 27, rfl⟩
abbrev main_cst_7 : Ref sig .tc := ⟨.hbm, 28, rfl⟩
abbrev main_call1_v0 : Ref sig .tc := ⟨.hbm, 29, rfl⟩
abbrev main_call1_v1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_8 : Ref sig .tc := ⟨.hbm, 41, rfl⟩
abbrev main_v21 : Ref sig .tc := ⟨.hbm, 42, rfl⟩
abbrev main_v22 : Ref sig .tc := ⟨.hbm, 43, rfl⟩
abbrev main_cst_9 : Ref sig .tc := ⟨.hbm, 44, rfl⟩
abbrev main_cst_10 : Ref sig .tc := ⟨.hbm, 45, rfl⟩
abbrev main_call2_v0 : Ref sig .tc := ⟨.hbm, 46, rfl⟩
abbrev main_call2_v1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_11 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_cst_13 : Ref sig .tc := ⟨.hbm, 62, rfl⟩
abbrev main_call3_v0 : Ref sig .tc := ⟨.hbm, 63, rfl⟩
abbrev main_call3_v1 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  reducesTo_S32768x1024_S32768_d1 : S32768x1024.ReducesTo [1] S32768
  h_S_ : 0 < S_.numel
  bcast_S_S32768 : S_.BroadcastsInDim S32768 (![] : Fin 0 → Fin S32768.rank)
  bcast_S_S1024x1024 : S_.BroadcastsInDim S1024x1024 (![] : Fin 0 → Fin S1024x1024.rank)
  bcast_S32768_S32768x1_0 : S32768.BroadcastsInDim S32768x1 (![0] : Fin 1 → Fin S32768x1.rank)
  bcast_S1024_S1x1024_1 : S1024.BroadcastsInDim S1x1024 (![1] : Fin 1 → Fin S1x1024.rank)
  bcast_S32768x1_S32768x1024_0_1 : S32768x1.BroadcastsInDim S32768x1024 (![0, 1] : Fin 2 → Fin S32768x1024.rank)
  bcast_S1x1024_S32768x1024_0_1 : S1x1024.BroadcastsInDim S32768x1024 (![0, 1] : Fin 2 → Fin S32768x1024.rank)
  dot_S32768x1024_S1024x1024_S32768x1024_1_0_0_1_n_n_wf : DotDims.WF S32768x1024 S1024x1024 S32768x1024 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf

class Facts : Prop extends Facts₀ where

variable [Facts]
-- ==== Proof.SignDense.lean ====
/-
  The function both programs compute, one output row at a time.

  For a row `r` of 1024 inputs, three 1024 × 1024 weight matrices `w0 w1 w2` and three scale vectors `a0 a1 a2`:
    * `bsign t` is the binary sign of `t`: the word of `1.0` where `t ≥ 0` (so zero goes to `+1`), the word of `-1.0` elsewhere;
    * `rowScale r = (Σ_k |r k|) / 1024`, the mean absolute value of the row;
    * `signDot r w u = Σ_k bsign (r k) · bsign (w k u)`, column `u` of the product of the two sign matrices;
    * `rowOut` adds the three estimators from zero, in order:
        ((0 + signDot r w0 u · (rowScale r · a0 u)) + signDot r w1 u · (rowScale r · a1 u)) + signDot r w2 u · (rowScale r · a2 u).
  `dense` is the whole array: entry `(n, u)` is `rowOut` of row `n` of `x`. A row's result depends on no other
  row, which is why a block of rows computed by itself is a block of the whole result.

  The four float words (0, 1, -1, 1024) are kept as words: both programs print the same ones, so none is evaluated here.
-/
import Idealize.ShloMosaic.PureOps.Ideal
import Idealize.ShloMosaic.Lib.ValueIdx

noncomputable section

namespace SignDense

open Idealize.ShloMosaic Idealize.ShloMosaic.ValueIdx

/-- The binary sign, zero counted as positive: `1.0` where `0 ≤ t`, else `-1.0`. -/
def bsign (t : EReal) : EReal :=
  Scalar.select (Ideal.cmp .oge t (Ideal.ofBits .f32 0x00000000#32))
    (Ideal.ofBits .f32 0x3F800000#32) (Ideal.ofBits .f32 0xBF800000#32)

/-- The mean absolute value of a row of 1024 entries (`|t| = max t (-t)` on the extended reals). -/
def rowScale (r : Fin 1024 → EReal) : EReal :=
  Ideal.div (∑ k : Fin 1024, max (r k) (-(r k))) (Ideal.ofBits .f32 0x44800000#32)

/-- Entry `u` of the row of signs times the matrix of signs. -/
def signDot (r : Fin 1024 → EReal) (w : (⟨2, ![1024, 1024]⟩ : Shape).Idx → EReal) (u : Fin 1024) : EReal :=
  ∑ k : Fin 1024, bsign (r k) * bsign (w (ix2 k u))

/-- One output entry: the three estimators, each the sign product scaled by the row's mean absolute value and the
    estimator's own per-column scale, added from zero in order. -/
def rowOut (r : Fin 1024 → EReal) (w0 w1 w2 : (⟨2, ![1024, 1024]⟩ : Shape).Idx → EReal)
    (a0 a1 a2 : (⟨1, ![1024]⟩ : Shape).Idx → EReal) (u : Fin 1024) : EReal :=
  ((Ideal.ofBits .f32 0x00000000#32 + signDot r w0 u * (rowScale r * a0 (ix1 u)))
      + signDot r w1 u * (rowScale r * a1 (ix1 u)))
    + signDot r w2 u * (rowScale r * a2 (ix1 u))

/-- The whole result over `N` rows: entry `(n, u)` is `rowOut` of row `n`. -/
def dense {N : Nat} (x : (⟨2, ![N, 1024]⟩ : Shape).Idx → EReal) (w0 w1 w2 : (⟨2, ![1024, 1024]⟩ : Shape).Idx → EReal)
    (a0 a1 a2 : (⟨1, ![1024]⟩ : Shape).Idx → EReal) : (⟨2, ![N, 1024]⟩ : Shape).Idx → EReal :=
  fun i => rowOut (fun k => x (ix2 (i 0) k)) w0 w1 w2 a0 a1 a2 (i 1)

theorem dense_apply {N : Nat} (x : (⟨2, ![N, 1024]⟩ : Shape).Idx → EReal) (w0 w1 w2 : (⟨2, ![1024, 1024]⟩ : Shape).Idx → EReal)
    (a0 a1 a2 : (⟨1, ![1024]⟩ : Shape).Idx → EReal) (n : Fin N) (u : Fin 1024) :
    dense x w0 w1 w2 a0 a1 a2 (ix2 n u) = rowOut (fun k => x (ix2 n k)) w0 w1 w2 a0 a1 a2 u := rfl

end SignDense

end
-- ==== Proof.ReferenceRows.lean ====
/-
  The reference computes `SignDense.dense`.

  Read one operation at a time, entry `i = (n, u)` of the reference's result is the sum, from zero, of three products
  `Z_e · (β · a_e u)`: `Z_e` the contraction over `k` of the sign of `x (n, k)` with the sign of `w_e (k, u)` (a
  `dot_general` is that sum on the extended reals), `β` the host's sum of `|x (n, k)|` over `k` from the initial value
  zero, divided by 1024, and broadcast along the row. The indices the layout operations compose to are the
  coordinates `(n, k)`, `(k, u)` and `u`; the initial value is the extended real zero and drops out of the sum.
-/
import proofs.«141892_j17729624998416_1_alg».proof.Proof.Gen.ReferenceIdeal.Read
import proofs.«141892_j17729624998416_1_alg».proof.Proof.SignDense

noncomputable section

namespace Cert.ReferenceIdeal.Rows

open Idealize.ShloMosaic Idealize.ShloMosaic.ValueIdx Cert.ReferenceIdeal Cert.ReferenceIdeal.Read

/-- The reference's last stage is `dense` of the seven arguments, index by index. -/
theorem result_eq (x0 : (⟨S32768x1024, .f32⟩ : BufTy).Contents (Elt Ideal))
    (x1 x2 x3 : (⟨S1024x1024, .f32⟩ : BufTy).Contents (Elt Ideal)) (x4 x5 x6 : (⟨S1024, .f32⟩ : BufTy).Contents (Elt Ideal)) :
    val_main_v44 (F := Ideal) x0 x1 x2 x3 x4 x5 x6 = SignDense.dense x0 x1 x2 x3 x4 x5 x6 := by
  funext i
  -- the composed index maps are the coordinates: row `n = i 0`, column `u = i 1`, contraction index `k`
  have hl13 : ∀ k, lidx_main_v13 i k = ix2 (i 0) k := fun k => funext fun a => Fin.ext (by
    match a with | ⟨0, _⟩ => rfl | ⟨1, _⟩ => rfl)
  have hr13 : ∀ k, ridx_main_v13 i k = ix2 k (i 1) := fun k => funext fun a => Fin.ext (by
    match a with | ⟨0, _⟩ => rfl | ⟨1, _⟩ => rfl)
  have hl25 : ∀ k, lidx_main_v25 i k = ix2 (i 0) k := fun k => funext fun a => Fin.ext (by
    match a with | ⟨0, _⟩ => rfl | ⟨1, _⟩ => rfl)
  have hr25 : ∀ k, ridx_main_v25 i k = ix2 k (i 1) := fun k => funext fun a => Fin.ext (by
    match a with | ⟨0, _⟩ => rfl | ⟨1, _⟩ => rfl)
  have hl37 : ∀ k, lidx_main_v37 i k = ix2 (i 0) k := fun k => funext fun a => Fin.ext (by
    match a with | ⟨0, _⟩ => rfl | ⟨1, _⟩ => rfl)
  have hr37 : ∀ k, ridx_main_v37 i k = ix2 k (i 1) := fun k => funext fun a => Fin.ext (by
    match a with | ⟨0, _⟩ => rfl | ⟨1, _⟩ => rfl)
  have hs16 : ∀ k, idx_main_v5 (idx_main_v14 (idx_main_v16 i)) k = ix2 (i 0) k := fun k => funext fun a => Fin.ext (by
    match a with | ⟨0, _⟩ => rfl | ⟨1, _⟩ => rfl)
  have hs28 : ∀ k, idx_main_v5 (idx_main_v26 (idx_main_v28 i)) k = ix2 (i 0) k := fun k => funext fun a => Fin.ext (by
    match a with | ⟨0, _⟩ => rfl | ⟨1, _⟩ => rfl)
  have hs40 : ∀ k, idx_main_v5 (idx_main_v38 (idx_main_v40 i)) k = ix2 (i 0) k := fun k => funext fun a => Fin.ext (by
    match a with | ⟨0, _⟩ => rfl | ⟨1, _⟩ => rfl)
  have ha17 : idx_main_v15 (idx_main_v17 i) = ix1 (i 1) := funext fun a => Fin.ext (by
    match a with | ⟨0, _⟩ => rfl)
  have ha29 : idx_main_v27 (idx_main_v29 i) = ix1 (i 1) := funext fun a => Fin.ext (by
    match a with | ⟨0, _⟩ => rfl)
  have ha41 : idx_main_v39 (idx_main_v41 i) = ix1 (i 1) := funext fun a => Fin.ext (by
    match a with | ⟨0, _⟩ => rfl)
  -- every operation read at an index, outermost first
  simp only [val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply, val_main_cst_0_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_call0_v0_apply, val_main_call0_v1_apply, val_main_call1_v0_apply, val_main_call1_v1_apply, val_main_call2_v0_apply, val_main_call2_v1_apply, val_main_call3_v0_apply, val_main_call3_v1_apply]
  -- the host's sum starts from the word of zero, which is the extended real zero
  simp only [hl13, hr13, hl25, hr25, hl37, hr37, hs16, hs28, hs40, ha17, ha29, ha41, Ideal.ofBits_def,
    SignDense.dense, SignDense.rowOut, SignDense.signDot, SignDense.rowScale, SignDense.bsign,
    Ideal.addf_def, Ideal.mulf_def, Ideal.hostDivf_def, Ideal.hostAbsf_def, Ideal.absf_def, Ideal.cmpf_def,
    Ideal.ofBits_zero_f32, zero_add]
  rfl

end Cert.ReferenceIdeal.Rows

end
-- ==== Proof.LibColumn.lean ====
/-
  Two layout operations read at an index given by coordinates, for a COLUMN (a vector kept as an `[a, 1]` array, as a
  reduction with `keepdims` leaves it): the cast of an `[a]` vector to the column `[a, 1]`, and the column broadcast
  along its unit axis to `[a, b]`. They sit beside the library's row forms (`[a] → [1, a]`, `[1, b] → [a, b]`) and mention
  no program.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`:
    the two indices have the same row-major position, `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockRows.lean ====
/-
  One entry of the block the kernel body stores, as `SignDense.rowOut` of that block's own row.

  The body loads a block `xb` of 512 rows, the three weight matrices and the three scale vectors whole, and stores one
  512 × 1024 value. Read at `(p, q)` on the extended reals:
    * the lane sum of `|xb|` over axis 1, kept as a column and divided by 1024, is `rowScale` of row `p` (`row_scale`);
    * each matrix product into a zero accumulator is the sum over `k` of the sign of `xb (p, k)` times the sign of
      `w (k, q)`: the change of format to bf16 is the identity on the extended reals (`sign_product`);
    * the column of row scales broadcast along the row, times the scale vector cast to a one-row matrix and broadcast down
      the rows, is `β p · a q` (`outer_scale`);
  and the three estimators are added from the zero splat in the order of `rowOut` (`block_entry`).
-/
import proofs.«141892_j17729624998416_1_alg».proof.Proof.Gen.KernelIdeal.Skeleton
import proofs.«141892_j17729624998416_1_alg».proof.Proof.SignDense
import proofs.«141892_j17729624998416_1_alg».proof.Proof.LibColumn
import Idealize.ShloMosaic.PureOps.Ideal.Laws
import Idealize.ShloMosaic.Lib.ValueLayout

noncomputable section

namespace Cert.KernelIdeal.Rows

open Idealize.ShloMosaic Idealize.ShloMosaic.ValueIdx Cert.KernelIdeal Cert.KernelIdeal.Gen

/-! ## The row scale -/

/-- The body's `Σ_k |xb (p, k)| / 1024`, kept as a column: entry `(p, ·)` is `rowScale` of row `p` of the block. -/
theorem row_scale (xb : FVec Ideal S512x1024 .f32) (p : Fin 512) (u : Fin 1) :
    k0_pay3 (F := Ideal) xb (ix2 p u) = SignDense.rowScale (fun k => xb (ix2 p k)) := by
  unfold k0_pay3 SignDense.rowScale
  dsimp only
  refine congrArg (fun s => Ideal.div s (Ideal.ofBits .f32 0x44800000#32)) ?_
  refine (shapeCast_a_a1_apply _ _ p u).trans ?_
  refine (Ideal.multiReduction_add_single _ _ _ _ _ (ix1 p)).trans ?_
  refine Finset.sum_congr rfl fun k _ => ?_
  exact congrArg (fun j => max (xb j) (-(xb j))) (funext fun a => Fin.ext (by
    match a with | ⟨0, _⟩ => rfl | ⟨1, _⟩ => rfl))

/-! ## The sign product -/

theorem lhs_axis0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_axis1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_axis0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_axis1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512 × 1024 by 1024 × 1024 product into the zero accumulator, at `(p, q)`: the sum over the contraction index `k` of
    the left operand at `(p, k)` times the right at `(k, q)`. -/
theorem product_entry (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The weights' signs as the body forms them (compare with the zero splat, select between the splats of `1.0` and
    `-1.0`, change of format): at an index, `bsign` of the weight. -/
abbrev wsign (w : FVec Ideal S1024x1024 .f32) : FVec Ideal S1024x1024 .bf16 :=
  truncf .bf16 (select (cmpf .oge w (broadcast S1024x1024 (Scalar.ofBits .f32 0x00000000#32)))
    (broadcast S1024x1024 (Scalar.ofBits .f32 0x3F800000#32)) (broadcast S1024x1024 (Scalar.ofBits .f32 0xBF800000#32))) bitsLt_bf16_f32

/-- One estimator's product at `(p, q)` is `signDot` of row `p` of the block with the weight matrix. -/
theorem sign_product (xb : FVec Ideal S512x1024 .f32) (w : FVec Ideal S1024x1024 .f32) (p : Fin 512) (q : Fin 1024) :
    matmul dot_S512x1024_S1024x1024_S512x1024_1_0_0_1_n_n none (k0_pay2 (F := Ideal) xb) (wsign w) (constant S512x1024 .f32 0x00000000#32) (ix2 p q)
      = SignDense.signDot (fun k => xb (ix2 p k)) w q :=
  (product_entry _ _ p q).trans rfl

/-! ## The scale of an entry -/

/-- A column `β` broadcast along the rows times a vector `a` laid as one row and broadcast down them: `β p · a q`. -/
theorem outer_scale (β : FVec Ideal S512x1 .f32) (a : FVec Ideal S1024 .f32) (p : Fin 512) (q : Fin 1024) :
    mulf (broadcastTo S512x1024 β broadcasts_S512x1_S512x1024)
        (broadcastTo S512x1024 (shapeCast S1x1024 a shapeCasts_S1024_S1x1024) broadcasts_S1x1024_S512x1024) (ix2 p q)
      = β (ix2 p (0 : Fin 1)) * a (ix1 q) := by
  show broadcastTo S512x1024 β broadcasts_S512x1_S512x1024 (ix2 p q)
      * broadcastTo S512x1024 (shapeCast S1x1024 a shapeCasts_S1024_S1x1024) broadcasts_S1x1024_S512x1024 (ix2 p q) = _
  rw [broadcastTo_a1_ab_apply, broadcastTo_1b_ab_apply, shapeCast_a_1a_apply]

/-- One estimator's term at `(p, q)`. -/
theorem estimator (xb : FVec Ideal S512x1024 .f32) (w : FVec Ideal S1024x1024 .f32) (a : FVec Ideal S1024 .f32) (p : Fin 512) (q : Fin 1024) :
    mulf (matmul dot_S512x1024_S1024x1024_S512x1024_1_0_0_1_n_n none (k0_pay2 (F := Ideal) xb) (wsign w) (constant S512x1024 .f32 0x00000000#32))
        (mulf (broadcastTo S512x1024 (k0_pay3 (F := Ideal) xb) broadcasts_S512x1_S512x1024)
          (broadcastTo S512x1024 (shapeCast S1x1024 a shapeCasts_S1024_S1x1024) broadcasts_S1x1024_S512x1024)) (ix2 p q)
      = SignDense.signDot (fun k => xb (ix2 p k)) w q * (SignDense.rowScale (fun k => xb (ix2 p k)) * a (ix1 q)) := by
  show _ * _ = _
  rw [sign_product, outer_scale, row_scale]

/-! ## The stored value -/

/-- Entry `(p, q)` of what the body stores is `rowOut` of row `p` of the input block. -/
theorem block_entry (xb : FVec Ideal S512x1024 .f32) (w0 w1 w2 : FVec Ideal S1024x1024 .f32) (a0 a1 a2 : FVec Ideal S1024 .f32)
    (p : Fin 512) (q : Fin 1024) :
    k0_pay1 (F := Ideal) (k0_pay2 xb) (k0_pay3 xb) (k0_pay4 xb w0 a0) (k0_pay5 xb w1) a1 w2 a2 (ix2 p q)
      = SignDense.rowOut (fun k => xb (ix2 p k)) w0 w1 w2 a0 a1 a2 q := by
  unfold k0_pay1 k0_pay4 k0_pay5 SignDense.rowOut
  dsimp only
  refine congrArg₂ (· + ·) (congrArg₂ (· + ·) (congrArg₂ (· + ·) rfl ?_) ?_) ?_
  · exact estimator xb w0 a0 p q
  · exact estimator xb w1 a1 p q
  · exact estimator xb w2 a2 p q

end Cert.KernelIdeal.Rows

end
-- ==== Proof.WholeArray.lean ====
/-
  From blocks to the array: after the run the kernel's result array is `SignDense.dense` of the launch contents.

  The grid has 64 points. Point `t` stages rows `512 t … 512 t + 511` of `x` (all 1024 columns), the three weight
  matrices and the three scale vectors whole (their index maps are constantly zero), and writes its 512 × 1024 result to
  the same rows of the output. By `Rows.block_entry`, entry `(p, q)` of what point `t` stores is `rowOut` of row `p` of
  its input block, which is row `512 t + p` of `x`; so what it writes back is block `t` of `dense` (`flushed_eq`). Row `r`
  of the output lies in the block of point `r / 512`, so the 64 blocks cover the array (`cover`) and the array ends
  holding `dense` everywhere (`final`, `run`).
-/
import proofs.«141892_j17729624998416_1_alg».proof.Proof.Gen.KernelIdeal.Value
import proofs.«141892_j17729624998416_1_alg».proof.Proof.BlockRows
import Idealize.ShloMosaic.Lib.Pipeline.Value

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)

/-- What a body stores at `(p, q)`, when row `p` of its input block is row `n` of `x` and its other operands are the
    whole arrays, is entry `(n, q)` of `dense`: a row's result depends on that row alone. -/
theorem entry_of_rows (xb : FVec Ideal S512x1024 .f32) (x : FVec Ideal S32768x1024 .f32)
    (w0b w1b w2b w0 w1 w2 : FVec Ideal S1024x1024 .f32) (a0b a1b a2b a0 a1 a2 : FVec Ideal S1024 .f32)
    (p : Fin 512) (q : Fin 1024) (n : Fin 32768) (hx : ∀ k : Fin 1024, xb (ix2 p k) = x (ix2 n k))
    (hw0 : w0b = w0) (hw1 : w1b = w1) (hw2 : w2b = w2) (ha0 : a0b = a0) (ha1 : a1b = a1) (ha2 : a2b = a2) :
    k0_pay1 (F := Ideal) (k0_pay2 xb) (k0_pay3 xb) (k0_pay4 xb w0b a0b) (k0_pay5 xb w1b) a1b w2b a2b (ix2 p q)
      = SignDense.dense x w0 w1 w2 a0 a1 a2 (ix2 n q) := by
  subst hw0 hw1 hw2 ha0 ha1 ha2
  rw [Rows.block_entry, SignDense.dense_apply]
  exact congrArg (fun r => SignDense.rowOut r w0b w1b w2b a0b a1b a2b q) (funext hx)

variable (m : (ℓ : Loc nD τ sig) → Buf (Elt Ideal) ℓ) (ρ : Dev nD → PrngReg)

/-- The offsets of a rank-2 load or store through a whole buffer are all zero. -/
theorem zero_offsets2 : (![0, 0] : Fin 2 → Nat) = fun _ => 0 := funext fun a => by fin_cases a <;> rfl
/-- The same at rank 1. -/
theorem zero_offsets1 : (![0] : Fin 1 → Nat) = fun _ => 0 := funext fun a => by fin_cases a <;> rfl

/-- The result array as one function of the arrays the region finds. -/
abbrev result (c : Dev nD) : FVec Ideal S32768x1024 .f32 :=
  SignDense.dense (V m c main_arg0) (V m c main_arg1) (V m c main_arg2) (V m c main_arg3)
    (V m c main_arg4) (V m c main_arg5) (V m c main_arg6)

/-- The printed index maps, decided over the 64 points: the input rows and the output rows move with the point and
    sit at column block zero; every other window stays at block zero. -/
theorem block_indices : ∀ t : Fin cfg0.N,
    win0_0.index t (0 : Fin 2) = t.val ∧ win0_0.index t (1 : Fin 2) = 0
    ∧ (win0_7.index t (0 : Fin 2) = t.val ∧ win0_7.index t (1 : Fin 2) = 0)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0 :=
  (by decide +kernel : ∀ t : Fin grid0.N, _)

/-- Window 1's block at every point is the whole of its array: its index map is constantly zero. -/
theorem resident1 (c : Dev nD) (t : Fin cfg0.N) : (iblk m c 1 t : FVec Ideal S1024x1024 .f32) = V m c main_arg1 := by
  obtain ⟨-, -, -, h10, h11, h20, h21, h30, h31, h4, h5, h6⟩ := block_indices t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Window 2's block at every point is the whole of its array: its index map is constantly zero. -/
theorem resident2 (c : Dev nD) (t : Fin cfg0.N) : (iblk m c 2 t : FVec Ideal S1024x1024 .f32) = V m c main_arg2 := by
  obtain ⟨-, -, -, h10, h11, h20, h21, h30, h31, h4, h5, h6⟩ := block_indices t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 1024 + 1 * (y 0).val = (y 0).val; omega
  | ⟨1, _⟩ => show win0_2.index t (1 : Fin 2) * 1024 + 1 * (y 1).val = (y 1).val; omega

/-- Window 3's block at every point is the whole of its array: its index map is constantly zero. -/
theorem resident3 (c : Dev nD) (t : Fin cfg0.N) : (iblk m c 3 t : FVec Ideal S1024x1024 .f32) = V m c main_arg3 := by
  obtain ⟨-, -, -, h10, h11, h20, h21, h30, h31, h4, h5, h6⟩ := block_indices t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- Window 4's block at every point is the whole of its array: its index map is constantly zero. -/
theorem resident4 (c : Dev nD) (t : Fin cfg0.N) : (iblk m c 4 t : FVec Ideal S1024 .f32) = V m c main_arg4 := by
  obtain ⟨-, -, -, h10, h11, h20, h21, h30, h31, h4, h5, h6⟩ := block_indices t
  funext y
  show V m c main_arg4 (((cfg0.win 4).blk t).view.emb y) = V m c main_arg4 y
  refine congrArg (V m c main_arg4) (funext fun a => Fin.ext ?_)
  match a with
  | ⟨0, _⟩ => show win0_4.index t (0 : Fin 1) * 1024 + 1 * (y 0).val = (y 0).val; omega

/-- Window 5's block at every point is the whole of its array: its index map is constantly zero. -/
theorem resident5 (c : Dev nD) (t : Fin cfg0.N) : (iblk m c 5 t : FVec Ideal S1024 .f32) = V m c main_arg5 := by
  obtain ⟨-, -, -, h10, h11, h20, h21, h30, h31, h4, h5, h6⟩ := block_indices t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 1024 + 1 * (y 0).val = (y 0).val; omega

/-- Window 6's block at every point is the whole of its array: its index map is constantly zero. -/
theorem resident6 (c : Dev nD) (t : Fin cfg0.N) : (iblk m c 6 t : FVec Ideal S1024 .f32) = V m c main_arg6 := by
  obtain ⟨-, -, -, h10, h11, h20, h21, h30, h31, h4, h5, h6⟩ := block_indices t
  funext y
  show V m c main_arg6 (((cfg0.win 6).blk t).view.emb y) = V m c main_arg6 y
  refine congrArg (V m c main_arg6) (funext fun a => Fin.ext ?_)
  match a with
  | ⟨0, _⟩ => show win0_6.index t (0 : Fin 1) * 1024 + 1 * (y 0).val = (y 0).val; omega

/-- Row `p` of the input block at point `t` is row `512 t + p` of `x`. -/
theorem xrow (c : Dev nD) (t : Fin cfg0.N) (p : Fin 512) (k : Fin 1024) (n : Fin 32768) (hn : n.val = 512 * t.val + p.val) :
    (iblk m c 0 t : FVec Ideal S512x1024 .f32) (ix2 p k) = V m c main_arg0 (ix2 n k) := by
  obtain ⟨h00, h01, -⟩ := block_indices t
  show V m c main_arg0 (((cfg0.win 0).blk t).view.emb (ix2 p k)) = V m c main_arg0 (ix2 n k)
  refine congrArg (V m c main_arg0) (funext fun a => Fin.ext ?_)
  match a with
  | ⟨0, _⟩ => show win0_0.index t (0 : Fin 2) * 512 + 1 * p.val = n.val; omega
  | ⟨1, _⟩ => show win0_0.index t (1 : Fin 2) * 1024 + 1 * k.val = k.val; omega

/-- What point `t` writes back is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero zero_offsets2]
  simp only [View.ld_unit_zero (S := S512x1024) zero_offsets2, View.ld_unit_zero (S := S1024x1024) zero_offsets2, View.ld_unit_zero (S := S1024) zero_offsets1]
  obtain ⟨-, -, ⟨h70, h71⟩, -⟩ := block_indices t
  have hN : t.val < 64 := t.isLt.trans_eq (show cfg0.N = 64 from N_0)
  funext j
  obtain ⟨p, q, rfl⟩ : ∃ (p : Fin 512) (q : Fin 1024), j = ix2 p q := ⟨j 0, j 1, eq_ix2 j⟩
  have hp : p.val < 512 := p.isLt
  have hn : 512 * t.val + p.val < 32768 := by omega
  show k0_pay1 (F := Ideal) (k0_pay2 (iblk m c 0 t)) (k0_pay3 (iblk m c 0 t)) (k0_pay4 (iblk m c 0 t) (iblk m c 1 t) (iblk m c 4 t))
      (k0_pay5 (iblk m c 0 t) (iblk m c 2 t)) (iblk m c 5 t) (iblk m c 3 t) (iblk m c 6 t) (ix2 p q)
    = result m c (((cfg0.win 7).blk t).view.emb (ix2 p q))
  refine (entry_of_rows (iblk m c 0 t) (V m c main_arg0) (iblk m c 1 t) (iblk m c 2 t) (iblk m c 3 t)
    (V m c main_arg1) (V m c main_arg2) (V m c main_arg3) (iblk m c 4 t) (iblk m c 5 t) (iblk m c 6 t)
    (V m c main_arg4) (V m c main_arg5) (V m c main_arg6) p q ⟨512 * t.val + p.val, hn⟩
    (fun k => xrow m c t p k ⟨512 * t.val + p.val, hn⟩ rfl)
    (resident1 m c t) (resident2 m c t) (resident3 m c t) (resident4 m c t) (resident5 m c t) (resident6 m c t)).trans ?_
  refine congrArg (result m c) (funext fun a => Fin.ext ?_)
  match a with
  | ⟨0, _⟩ => show 512 * t.val + p.val = win0_7.index t (0 : Fin 2) * 512 + 1 * p.val; omega
  | ⟨1, _⟩ => show q.val = win0_7.index t (1 : Fin 2) * 1024 + 1 * q.val; omega

/-- An index of the output is in point `t`'s block iff each coordinate is in the block's range on its axis. -/
theorem mem_output_block (t : Fin cfg0.N) (i : S32768x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v0).slice (win0_7.rect t)).set ↔ _
  rw [View.set_slice_whole, Rect.mem_set_unit]
  exact Iff.rfl

/-- Every index of the output is in the block of the point its row falls to. -/
theorem cover (i : S32768x1024.Idx) :
    ∃ t : Fin cfg0.N, (cfg0.win 7).flush t = true ∧ i ∈ ((cfg0.win 7).blk t).view.set := by
  have h0 : (i 0).val < 32768 := (i 0).isLt
  have h1 : (i 1).val < 1024 := (i 1).isLt
  have ht : (i 0).val / 512 < cfg0.N := by rw [show cfg0.N = 64 from N_0]; omega
  obtain ⟨-, -, ⟨h70, h71⟩, -⟩ := block_indices ⟨(i 0).val / 512, ht⟩
  refine ⟨⟨(i 0).val / 512, ht⟩, flush0_7 _, ?_⟩
  rw [mem_output_block]
  intro a
  match a with
  | ⟨0, _⟩ =>
    show win0_7.index ⟨(i 0).val / 512, ht⟩ (0 : Fin 2) * 512 ≤ (i 0).val
      ∧ (i 0).val < win0_7.index ⟨(i 0).val / 512, ht⟩ (0 : Fin 2) * 512 + 512
    rw [h70]; show (i 0).val / 512 * 512 ≤ (i 0).val ∧ (i 0).val < (i 0).val / 512 * 512 + 512; omega
  | ⟨1, _⟩ =>
    show win0_7.index ⟨(i 0).val / 512, ht⟩ (1 : Fin 2) * 1024 ≤ (i 1).val
      ∧ (i 1).val < win0_7.index ⟨(i 0).val / 512, ht⟩ (1 : Fin 2) * 1024 + 1024
    rw [h71]; omega

/-- The output array after the run is `result`. -/
theorem final (c : Dev nD) : (dats m 0 c).arrAt 7 cfg0.N = result m c :=
  (dats m 0 c).arrAt_eq_of_cover 7 (result m c) (fun t _ => flushed_eq m c t) cover

/-- The kernel's run, read: the result array at `dense` of the launch contents, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.lean ====
/-
  An ensemble of three sign-quantised dense layers, the kernel against its jnp reference, over the extended reals.

  Both programs compute, for every row `n` of the 32768 × 1024 input `x` and every output column `u`,
    ((0 + Z₀ · (β · a₀ u)) + Z₁ · (β · a₁ u)) + Z₂ · (β · a₂ u),
  where `Z_e = Σ_k sgn (x n k) · sgn (w_e k u)` is the product of the sign matrices (`sgn t = 1` for `t ≥ 0`, else `-1`),
  and `β = (Σ_k |x n k|) / 1024` is the row's mean absolute value (Proof/SignDense.lean). The two differ only in how
  the work is laid out: the kernel takes 512 rows at a time over a grid of 64 points, casts the signs to bf16 (the
  identity on the extended reals) and multiplies into a zero accumulator; the reference forms the whole arrays. The same
  four float words appear on both sides and the operations are added and multiplied in the same order, so no algebraic
  law beyond `0 + s = s` for the host sum's initial value is used, and the inputs' finiteness is never opened.

    * Proof/ReferenceRows.lean: the reference's result, read one operation at a time, is that function.
    * Proof/BlockRows.lean: an entry of the block the kernel body stores is that function of the block's own row.
    * Proof/WholeArray.lean: the 64 blocks written back tile the output, so the kernel's result array is that function.
  The three frames are the programs' runs; the idealization rewrote nothing, so `preserves` is `True`.
-/
import proofs.«141892_j17729624998416_1_alg».proof.Defs
import proofs.«141892_j17729624998416_1_alg».proof.Proof.Gen.Kernel
import proofs.«141892_j17729624998416_1_alg».proof.Proof.Gen.Kernel.Skeleton
import proofs.«141892_j17729624998416_1_alg».proof.Proof.Gen.Kernel.Launch
import proofs.«141892_j17729624998416_1_alg».proof.Proof.Gen.Kernel.Points
import proofs.«141892_j17729624998416_1_alg».proof.Proof.Gen.Kernel.Frame
import proofs.«141892_j17729624998416_1_alg».proof.Proof.Gen.KernelIdeal
import proofs.«141892_j17729624998416_1_alg».proof.Proof.Gen.KernelIdeal.Skeleton
import proofs.«141892_j17729624998416_1_alg».proof.Proof.Gen.KernelIdeal.Launch
import proofs.«141892_j17729624998416_1_alg».proof.Proof.Gen.KernelIdeal.Points
import proofs.«141892_j17729624998416_1_alg».proof.Proof.Gen.KernelIdeal.Frame
import proofs.«141892_j17729624998416_1_alg».proof.Proof.Gen.ReferenceIdeal
import proofs.«141892_j17729624998416_1_alg».proof.Proof.Gen.KernelIdeal.Value
import proofs.«141892_j17729624998416_1_alg».proof.Proof.Gen.ReferenceIdeal.Run
import proofs.«141892_j17729624998416_1_alg».proof.Proof.Gen.ReferenceIdeal.Read
import proofs.«141892_j17729624998416_1_alg».proof.Proof.Gen.Pre_finite_inputs
import proofs.«141892_j17729624998416_1_alg».proof.Proof.SignDense
import proofs.«141892_j17729624998416_1_alg».proof.Proof.ReferenceRows
import proofs.«141892_j17729624998416_1_alg».proof.Proof.BlockRows
import proofs.«141892_j17729624998416_1_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array ends at `dense` of its launch contents
    and the reference's at the same function of its own, which are the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  exact (Cert.ReferenceIdeal.Read.val_main_v44_eq _ _ _ _ _ _ _).trans (Cert.ReferenceIdeal.Rows.result_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
